-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S256x98 : Shape := ⟨2, ![256, 98]⟩
abbrev S_ : Shape := ⟨0, ![]⟩
abbrev S10x32 : Shape := ⟨2, ![10, 32]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  reducesTo_S_S_d : S_.ReducesTo [] S_

variable [Facts]

def fn {F : FTy → Type} [FloatOps F] (main_arg0 : FVec F S32768x784 .f32) (main_arg1 : IVec S256x98 32) (main_arg2 : IVec S256x98 32) (main_arg3 : FVec F S_ .f32) (main_arg4 : IVec S10x32 32) (main_arg5 : IVec S10x32 32) (main_arg6 : FVec F S_ .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg6
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  main_v11
-- ==== Kernel.lean ====
abbrev S32768x784 : Shape := ⟨2, ![32768, 784]⟩
abbrev S256x98 : Shape := ⟨2, ![256, 98]⟩
abbrev S_ : Shape := ⟨0, ![]⟩
abbrev S10x32 : Shape := ⟨2, ![10, 32]⟩
abbrev S256x98x1 : Shape := ⟨3, ![256, 98, 1]⟩
abbrev S8 : Shape := ⟨1, ![8]⟩
abbrev S1x1x8 : Shape := ⟨3, ![1, 1, 8]⟩
abbrev S256x98x8 : Shape := ⟨3, ![256, 98, 8]⟩
abbrev S256x784 : Shape := ⟨2, ![256, 784]⟩
abbrev S10x32x1 : Shape := ⟨3, ![10, 32, 1]⟩
abbrev S10x32x8 : Shape := ⟨3, ![10, 32, 8]⟩
abbrev S10x256 : Shape := ⟨2, ![10, 256]⟩
abbrev S784x256 : Shape := ⟨2, ![784, 256]⟩
abbrev S256x10 : Shape := ⟨2, ![256, 10]⟩
abbrev S32768x10 : Shape := ⟨2, ![32768, 10]⟩
abbrev S2048x784 : Shape := ⟨2, ![2048, 784]⟩
abbrev S2048x10 : Shape := ⟨2, ![2048, 10]⟩
abbrev S2048x256 : Shape := ⟨2, ![2048, 256]⟩

abbrev nBuf : Space → Nat
  | .hbm => 98
  | .vmem => 6
  | .smem => 0
  | _ => 0

abbrev bufTy : (tb : Table) → Fin (tcTables nBuf tb) → BufTy
  | .hbm, ⟨0, _⟩ => ⟨S32768x784, .f32⟩
  | .hbm, ⟨1, _⟩ => ⟨S256x98, .i32⟩
  | .hbm, ⟨2, _⟩ => ⟨S256x98, .i32⟩
  | .hbm, ⟨3, _⟩ => ⟨S_, .f32⟩
  | .hbm, ⟨4, _⟩ => ⟨S10x32, .i32⟩
  | .hbm, ⟨5, _⟩ => ⟨S10x32, .i32⟩
  | .hbm, ⟨6, _⟩ => ⟨S_, .f32⟩
  | .hbm, ⟨7, _⟩ => ⟨S256x98x1, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S1x1x8, .i32⟩
  | .hbm, ⟨16, _⟩ => ⟨S256x98x8, .i32⟩
  | .hbm, ⟨17, _⟩ => ⟨S256x98x8, .i32⟩
  | .hbm, ⟨18, _⟩ => ⟨S256x98x8, .i32⟩
  | .hbm, ⟨19, _⟩ => ⟨S_, .i32⟩
  | .hbm, ⟨20, _⟩ => ⟨S256x98x8, .i32⟩
  | .hbm, ⟨21, _⟩ => ⟨S256x98x8, .i32⟩
  | .hbm, ⟨22, _⟩ => ⟨S256x784, .i32⟩
  | .hbm, ⟨23, _⟩ => ⟨S_, .i32⟩
  | .hbm, ⟨24, _⟩ => ⟨S256x784, .i32⟩
  | .hbm, ⟨25, _⟩ => ⟨S256x784, .i32⟩
  | .hbm, ⟨26, _⟩ => ⟨S_, .i32⟩
  | .hbm, ⟨27, _⟩ => ⟨S256x784, .i32⟩
  | .hbm, ⟨28, _⟩ => ⟨S256x784, .i32⟩
  | .hbm, ⟨29, _⟩ => ⟨S256x784, .f32⟩
  | .hbm, ⟨30, _⟩ => ⟨S256x98x1, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S1x1x8, .i32⟩
  | .hbm, ⟨39, _⟩ => ⟨S256x98x8, .i32⟩
  | .hbm, ⟨40, _⟩ => ⟨S256x98x8, .i32⟩
  | .hbm, ⟨41, _⟩ => ⟨S256x98x8, .i32⟩
  | .hbm, ⟨42, _⟩ => ⟨S_, .i32⟩
  | .hbm, ⟨43, _⟩ => ⟨S256x98x8, .i32⟩
  | .hbm, ⟨44, _⟩ => ⟨S256x98x8, .i32⟩
  | .hbm, ⟨45, _⟩ => ⟨S256x784, .i32⟩
  | .hbm, ⟨46, _⟩ => ⟨S256x784, .f32⟩
  | .hbm, ⟨47, _⟩ => ⟨S256x784, .f32⟩
  | .hbm, ⟨48, _⟩ => ⟨S256x784, .f32⟩
  | .hbm, ⟨49, _⟩ => ⟨S256x784, .f32⟩
  | .hbm, ⟨50, _⟩ => ⟨S10x32x1, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S1x1x8, .i32⟩
  | .hbm, ⟨59, _⟩ => ⟨S10x32x8, .i32⟩
  | .hbm, ⟨60, _⟩ => ⟨S10x32x8, .i32⟩
  | .hbm, ⟨61, _⟩ => ⟨S10x32x8, .i32⟩
  | .hbm, ⟨62, _⟩ => ⟨S_, .i32⟩
  | .hbm, ⟨63, _⟩ => ⟨S10x32x8, .i32⟩
  | .hbm, ⟨64, _⟩ => ⟨S10x32x8, .i32⟩
  | .hbm, ⟨65, _⟩ => ⟨S10x256, .i32⟩
  | .hbm, ⟨66, _⟩ => ⟨S_, .i32⟩
  | .hbm, ⟨67, _⟩ => ⟨S10x256, .i32⟩
  | .hbm, ⟨68, _⟩ => ⟨S10x256, .i32⟩
  | .hbm, ⟨69, _⟩ => ⟨S_, .i32⟩
  | .hbm, ⟨70, _⟩ => ⟨S10x256, .i32⟩
  | .hbm, ⟨71, _⟩ => ⟨S10x256, .i32⟩
  | .hbm, ⟨72, _⟩ => ⟨S10x256, .f32⟩
  | .hbm, ⟨73, _⟩ => ⟨S10x32x1, .i32⟩
  | .hbm, ⟨74, _⟩ => ⟨S8, .i32⟩
  | .hbm, ⟨75, _⟩ => ⟨S_, .i32⟩
  | .hbm, ⟨76, _⟩ => ⟨S8, .i32⟩
  | .hbm, ⟨77, _⟩ => ⟨S8, .i32⟩
  | .hbm, ⟨78, _⟩ => ⟨S_, .i32⟩
  | .hbm, ⟨79, _⟩ => ⟨S8, .i32⟩
  | .hbm, ⟨80, _⟩ => ⟨S8, .i32⟩
  | .hbm, ⟨81, _⟩ => ⟨S1x1x8, .i32⟩
  | .hbm, ⟨82, _⟩ => ⟨S10x32x8, .i32⟩
  | .hbm, ⟨83, _⟩ => ⟨S10x32x8, .i32⟩
  | .hbm, ⟨84, _⟩ => ⟨S10x32x8, .i32⟩
  | .hbm, ⟨85, _⟩ => ⟨S_, .i32⟩
  | .hbm, ⟨86, _⟩ => ⟨S10x32x8, .i32⟩
  | .hbm, ⟨87, _⟩ => ⟨S10x32x8, .i32⟩
  | .hbm, ⟨88, _⟩ => ⟨S10x256, .i32⟩
  | .hbm, ⟨89, _⟩ => ⟨S10x256, .f32⟩
  | .hbm, ⟨90, _⟩ => ⟨S10x256, .f32⟩
  | .hbm, ⟨91, _⟩ => ⟨S10x256, .f32⟩
  | .hbm, ⟨92, _⟩ => ⟨S10x256, .f32⟩
  | .hbm, ⟨93, _⟩ => ⟨S784x256, .f32⟩
  | .hbm, ⟨94, _⟩ => ⟨S784x256, .bf16⟩
  | .hbm, ⟨95, _⟩ => ⟨S256x10, .f32⟩
  | .hbm, ⟨96, _⟩ => ⟨S256x10, .bf16⟩
  | .hbm, ⟨97, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S784x256, .bf16⟩
  | .local _ .vmem, ⟨3, _⟩ => ⟨S256x10, .bf16⟩
  | .local _ .vmem, ⟨4, _⟩ => ⟨S2048x10, .f32⟩
  | .local _ .vmem, ⟨5, _⟩ => ⟨S2048x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_c_1 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_c_2 : Ref sig .tc := ⟨.hbm, 23, rfl⟩
abbrev main_call0_v13 : Ref sig .tc := ⟨.hbm, 24, rfl⟩
abbrev main_call0_v14 : Ref sig .tc := ⟨.hbm, 25, rfl⟩
abbrev main_call0_c_3 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_c_4 : Ref sig .tc := ⟨.hbm, 32, rfl⟩
abbrev main_call0_v20 : Ref sig .tc := ⟨.hbm, 33, rfl⟩
abbrev main_call0_v21 : Ref sig .tc := ⟨.hbm, 34, rfl⟩
abbrev main_call0_c_5 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c_6 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_c_7 : Ref sig .tc := ⟨.hbm, 52, rfl⟩
abbrev main_call0_v37 : Ref sig .tc := ⟨.hbm, 53, rfl⟩
abbrev main_call0_v38 : Ref sig .tc := ⟨.hbm, 54, rfl⟩
abbrev main_call0_c_8 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_call0_v42 : Ref sig .tc := ⟨.hbm, 59, rfl⟩
abbrev main_call0_v43 : Ref sig .tc := ⟨.hbm, 60, rfl⟩
abbrev main_call0_v44 : Ref sig .tc := ⟨.hbm, 61, rfl⟩
abbrev main_call0_c_9 : Ref sig .tc := ⟨.hbm, 62, rfl⟩
abbrev main_call0_v45 : Ref sig .tc := ⟨.hbm, 63, rfl⟩
abbrev main_call0_v46 : Ref sig .tc := ⟨.hbm, 64, rfl⟩
abbrev main_call0_v47 : Ref sig .tc := ⟨.hbm, 65, rfl⟩
abbrev main_call0_c_10 : Ref sig .tc := ⟨.hbm, 66, rfl⟩
abbrev main_call0_v48 : Ref sig .tc := ⟨.hbm, 67, rfl⟩
abbrev main_call0_v49 : Ref sig .tc := ⟨.hbm, 68, rfl⟩
abbrev main_call0_c_11 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_c_12 : Ref sig .tc := ⟨.hbm, 75, rfl⟩
abbrev main_call0_v55 : Ref sig .tc := ⟨.hbm, 76, rfl⟩
abbrev main_call0_v56 : Ref sig .tc := ⟨.hbm, 77, rfl⟩
abbrev main_call0_c_13 : Ref sig .tc := ⟨.hbm, 78, rfl⟩
abbrev main_call0_v57 : Ref sig .tc := ⟨.hbm, 79, rfl⟩
abbrev main_call0_v58 : Ref sig .tc := ⟨.hbm, 80, rfl⟩
abbrev main_call0_v59 : Ref sig .tc := ⟨.hbm, 81, rfl⟩
abbrev main_call0_v60 : Ref sig .tc := ⟨.hbm, 82, rfl⟩
abbrev main_call0_v61 : Ref sig .tc := ⟨.hbm, 83, rfl⟩
abbrev main_call0_v62 : Ref sig .tc := ⟨.hbm, 84, rfl⟩
abbrev main_call0_c_14 : Ref sig .tc := ⟨.hbm, 85, rfl⟩
abbrev main_call0_v63 : Ref sig .tc := ⟨.hbm, 86, rfl⟩
abbrev main_call0_v64 : Ref sig .tc := ⟨.hbm, 87, rfl⟩
abbrev main_call0_v65 : Ref sig .tc := ⟨.hbm, 88, rfl⟩
abbrev main_call0_v66 : Ref sig .tc := ⟨.hbm, 89, rfl⟩
abbrev main_call0_v67 : Ref sig .tc := ⟨.hbm, 90, rfl⟩
abbrev main_call0_v68 : Ref sig .tc := ⟨.hbm, 91, rfl⟩
abbrev main_call0_v69 : Ref sig .tc := ⟨.hbm, 92, rfl⟩
abbrev main_call0_v70 : Ref sig .tc := ⟨.hbm, 93, rfl⟩
abbrev main_call0_v71 : Ref sig .tc := ⟨.hbm, 94, rfl⟩
abbrev main_call0_v72 : Ref sig .tc := ⟨.hbm, 95, rfl⟩
abbrev main_call0_v73 : Ref sig .tc := ⟨.hbm, 96, rfl⟩
abbrev main_v0 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x10 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S256x98_S256x98x1_0_1 : S256x98.BroadcastsInDim S256x98x1 (![0, 1] : Fin 2 → Fin S256x98x1.rank)
  bcast_S_S8 : S_.BroadcastsInDim S8 (![] : Fin 0 → Fin S8.rank)
  bcast_S8_S1x1x8_2 : S8.BroadcastsInDim S1x1x8 (![2] : Fin 1 → Fin S1x1x8.rank)
  bcast_S256x98x1_S256x98x8_0_1_2 : S256x98x1.BroadcastsInDim S256x98x8 (![0, 1, 2] : Fin 3 → Fin S256x98x8.rank)
  bcast_S1x1x8_S256x98x8_0_1_2 : S1x1x8.BroadcastsInDim S256x98x8 (![0, 1, 2] : Fin 3 → Fin S256x98x8.rank)
  bcast_S_S256x98x8 : S_.BroadcastsInDim S256x98x8 (![] : Fin 0 → Fin S256x98x8.rank)
  shapeCasts_S256x98x8_S256x784 : S256x98x8.ShapeCasts S256x784
  bcast_S_S256x784 : S_.BroadcastsInDim S256x784 (![] : Fin 0 → Fin S256x784.rank)
  bcast_S10x32_S10x32x1_0_1 : S10x32.BroadcastsInDim S10x32x1 (![0, 1] : Fin 2 → Fin S10x32x1.rank)
  bcast_S10x32x1_S10x32x8_0_1_2 : S10x32x1.BroadcastsInDim S10x32x8 (![0, 1, 2] : Fin 3 → Fin S10x32x8.rank)
  bcast_S1x1x8_S10x32x8_0_1_2 : S1x1x8.BroadcastsInDim S10x32x8 (![0, 1, 2] : Fin 3 → Fin S10x32x8.rank)
  bcast_S_S10x32x8 : S_.BroadcastsInDim S10x32x8 (![] : Fin 0 → Fin S10x32x8.rank)
  shapeCasts_S10x32x8_S10x256 : S10x32x8.ShapeCasts S10x256
  bcast_S_S10x256 : S_.BroadcastsInDim S10x256 (![] : Fin 0 → Fin S10x256.rank)
  transposes_S256x784_S784x256_1_0 : S256x784.Transposes [1, 0] S784x256
  bitsLt_bf16_f32 : FTy.bits .bf16 < FTy.bits .f32
  transposes_S10x256_S256x10_1_0 : S10x256.Transposes [1, 0] S256x10
  inb_S2048x784_S2048x784_0_0 : ∀ a, (![0, 0] : Fin 2 → Nat) a + S2048x784.size a ≤ S2048x784.size a
  h_S2048x784 : 0 < S2048x784.numel
  inb_S784x256_S784x256_0_0 : ∀ a, (![0, 0] : Fin 2 → Nat) a + S784x256.size a ≤ S784x256.size a
  h_S784x256 : 0 < S784x256.numel
  shapeCasts_S784x256_S784x256 : S784x256.ShapeCasts S784x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S2048x10_S2048x10_0_0 : ∀ a, (![0, 0] : Fin 2 → Nat) a + S2048x10.size a ≤ S2048x10.size a
  h_S2048x10 : 0 < S2048x10.numel
  dot_S2048x784_S784x256_S2048x256_1_0_0_1_n_n_wf : DotDims.WF S2048x784 S784x256 S2048x256 [1] [0] [0] [1] [] []
  dot_S2048x256_S256x10_S2048x10_1_0_0_1_n_n_wf : DotDims.WF S2048x256 S256x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x256.size a ≤ S784x256.size a
  hwx0_1 : ∀ i : grid0.Coords, EltTy.bits .bf16 = 32 ∨ (Rect.block (s := S784x256) S784x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x10.size a ≤ S256x10.size a
  hwx0_2 : ∀ i : grid0.Coords, EltTy.bits .bf16 = 32 ∨ (Rect.block (s := S256x10) S256x10.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x10.size a ≤ S32768x10.size a
  hwx0_3 : ∀ i : grid0.Coords, EltTy.bits .f32 = 32 ∨ (Rect.block (s := S32768x10) S2048x10.size (cc0_transform_3 i) (hinb0_3 i)).WholeWords (EltTy.packing .f32)

variable [Facts₀]

def dot_S2048x784_S784x256_S2048x256_1_0_0_1_n_n : DotDims S2048x784 S784x256 S2048x256 where
  lhsContracting := [1]
  rhsContracting := [0]
  lhsNonContracting := [0]
  rhsNonContracting := [1]
  lhsBatch := []
  rhsBatch := []
  wf := dot_S2048x784_S784x256_S2048x256_1_0_0_1_n_n_wf
def dot_S2048x256_S256x10_S2048x10_1_0_0_1_n_n : DotDims S2048x256 S256x10 S2048x10 where
  lhsContracting := [1]
  rhsContracting := [0]
  lhsNonContracting := [0]
  rhsNonContracting := [1]
  lhsBatch := []
  rhsBatch := []
  wf := dot_S2048x256_S256x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v71) S784x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v73) S256x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x784 : Shape := ⟨2, ![32768, 784]⟩
abbrev S256x98 : Shape := ⟨2, ![256, 98]⟩
abbrev S_ : Shape := ⟨0, ![]⟩
abbrev S10x32 : Shape := ⟨2, ![10, 32]⟩
abbrev S256x98x1 : Shape := ⟨3, ![256, 98, 1]⟩
abbrev S8 : Shape := ⟨1, ![8]⟩
abbrev S1x1x8 : Shape := ⟨3, ![1, 1, 8]⟩
abbrev S256x98x8 : Shape := ⟨3, ![256, 98, 8]⟩
abbrev S256x784 : Shape := ⟨2, ![256, 784]⟩
abbrev S32768x256 : Shape := ⟨2, ![32768, 256]⟩
abbrev S10x32x1 : Shape := ⟨3, ![10, 32, 1]⟩
abbrev S10x32x8 : Shape := ⟨3, ![10, 32, 8]⟩
abbrev S10x256 : Shape := ⟨2, ![10, 256]⟩
abbrev S32768x10 : Shape := ⟨2, ![32768, 10]⟩

abbrev nBuf : Space → Nat
  | .hbm => 98
  | .vmem => 0
  | .smem => 0
  | _ => 0

abbrev bufTy : (tb : Table) → Fin (tcTables nBuf tb) → BufTy
  | .hbm, ⟨0, _⟩ => ⟨S32768x784, .f32⟩
  | .hbm, ⟨1, _⟩ => ⟨S256x98, .i32⟩
  | .hbm, ⟨2, _⟩ => ⟨S256x98, .i32⟩
  | .hbm, ⟨3, _⟩ => ⟨S_, .f32⟩
  | .hbm, ⟨4, _⟩ => ⟨S10x32, .i32⟩
  | .hbm, ⟨5, _⟩ => ⟨S10x32, .i32⟩
  | .hbm, ⟨6, _⟩ => ⟨S_, .f32⟩
  | .hbm, ⟨7, _⟩ => ⟨S256x98x1, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S1x1x8, .i32⟩
  | .hbm, ⟨16, _⟩ => ⟨S256x98x8, .i32⟩
  | .hbm, ⟨17, _⟩ => ⟨S256x98x8, .i32⟩
  | .hbm, ⟨18, _⟩ => ⟨S256x98x8, .i32⟩
  | .hbm, ⟨19, _⟩ => ⟨S_, .i32⟩
  | .hbm, ⟨20, _⟩ => ⟨S256x98x8, .i32⟩
  | .hbm, ⟨21, _⟩ => ⟨S256x98x8, .i32⟩
  | .hbm, ⟨22, _⟩ => ⟨S256x784, .i32⟩
  | .hbm, ⟨23, _⟩ => ⟨S_, .i32⟩
  | .hbm, ⟨24, _⟩ => ⟨S256x784, .i32⟩
  | .hbm, ⟨25, _⟩ => ⟨S256x784, .i32⟩
  | .hbm, ⟨26, _⟩ => ⟨S_, .i32⟩
  | .hbm, ⟨27, _⟩ => ⟨S256x784, .i32⟩
  | .hbm, ⟨28, _⟩ => ⟨S256x784, .i32⟩
  | .hbm, ⟨29, _⟩ => ⟨S256x784, .f32⟩
  | .hbm, ⟨30, _⟩ => ⟨S256x98x1, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S1x1x8, .i32⟩
  | .hbm, ⟨39, _⟩ => ⟨S256x98x8, .i32⟩
  | .hbm, ⟨40, _⟩ => ⟨S256x98x8, .i32⟩
  | .hbm, ⟨41, _⟩ => ⟨S256x98x8, .i32⟩
  | .hbm, ⟨42, _⟩ => ⟨S_, .i32⟩
  | .hbm, ⟨43, _⟩ => ⟨S256x98x8, .i32⟩
  | .hbm, ⟨44, _⟩ => ⟨S256x98x8, .i32⟩
  | .hbm, ⟨45, _⟩ => ⟨S256x784, .i32⟩
  | .hbm, ⟨46, _⟩ => ⟨S256x784, .f32⟩
  | .hbm, ⟨47, _⟩ => ⟨S256x784, .f32⟩
  | .hbm, ⟨48, _⟩ => ⟨S256x784, .f32⟩
  | .hbm, ⟨49, _⟩ => ⟨S256x784, .f32⟩
  | .hbm, ⟨50, _⟩ => ⟨S32768x256, .f32⟩
  | .hbm, ⟨51, _⟩ => ⟨S_, .f32⟩
  | .hbm, ⟨52, _⟩ => ⟨S32768x256, .f32⟩
  | .hbm, ⟨53, _⟩ => ⟨S32768x256, .f32⟩
  | .hbm, ⟨54, _⟩ => ⟨S10x32x1, .i32⟩
  | .hbm, ⟨55, _⟩ => ⟨S8, .i32⟩
  | .hbm, ⟨56, _⟩ => ⟨S_, .i32⟩
  | .hbm, ⟨57, _⟩ => ⟨S8, .i32⟩
  | .hbm, ⟨58, _⟩ => ⟨S8, .i32⟩
  | .hbm, ⟨59, _⟩ => ⟨S_, .i32⟩
  | .hbm, ⟨60, _⟩ => ⟨S8, .i32⟩
  | .hbm, ⟨61, _⟩ => ⟨S8, .i32⟩
  | .hbm, ⟨62, _⟩ => ⟨S1x1x8, .i32⟩
  | .hbm, ⟨63, _⟩ => ⟨S10x32x8, .i32⟩
  | .hbm, ⟨64, _⟩ => ⟨S10x32x8, .i32⟩
  | .hbm, ⟨65, _⟩ => ⟨S10x32x8, .i32⟩
  | .hbm, ⟨66, _⟩ => ⟨S_, .i32⟩
  | .hbm, ⟨67, _⟩ => ⟨S10x32x8, .i32⟩
  | .hbm, ⟨68, _⟩ => ⟨S10x32x8, .i32⟩
  | .hbm, ⟨69, _⟩ => ⟨S10x256, .i32⟩
  | .hbm, ⟨70, _⟩ => ⟨S_, .i32⟩
  | .hbm, ⟨71, _⟩ => ⟨S10x256, .i32⟩
  | .hbm, ⟨72, _⟩ => ⟨S10x256, .i32⟩
  | .hbm, ⟨73, _⟩ => ⟨S_, .i32⟩
  | .hbm, ⟨74, _⟩ => ⟨S10x256, .i32⟩
  | .hbm, ⟨75, _⟩ => ⟨S10x256, .i32⟩
  | .hbm, ⟨76, _⟩ => ⟨S10x256, .f32⟩
  | .hbm, ⟨77, _⟩ => ⟨S10x32x1, .i32⟩
  | .hbm, ⟨78, _⟩ => ⟨S8, .i32⟩
  | .hbm, ⟨79, _⟩ => ⟨S_, .i32⟩
  | .hbm, ⟨80, _⟩ => ⟨S8, .i32⟩
  | .hbm, ⟨81, _⟩ => ⟨S8, .i32⟩
  | .hbm, ⟨82, _⟩ => ⟨S_, .i32⟩
  | .hbm, ⟨83, _⟩ => ⟨S8, .i32⟩
  | .hbm, ⟨84, _⟩ => ⟨S8, .i32⟩
  | .hbm, ⟨85, _⟩ => ⟨S1x1x8, .i32⟩
  | .hbm, ⟨86, _⟩ => ⟨S10x32x8, .i32⟩
  | .hbm, ⟨87, _⟩ => ⟨S10x32x8, .i32⟩
  | .hbm, ⟨88, _⟩ => ⟨S10x32x8, .i32⟩
  | .hbm, ⟨89, _⟩ => ⟨S_, .i32⟩
  | .hbm, ⟨90, _⟩ => ⟨S10x32x8, .i32⟩
  | .hbm, ⟨91, _⟩ => ⟨S10x32x8, .i32⟩
  | .hbm, ⟨92, _⟩ => ⟨S10x256, .i32⟩
  | .hbm, ⟨93, _⟩ => ⟨S10x256, .f32⟩
  | .hbm, ⟨94, _⟩ => ⟨S10x256, .f32⟩
  | .hbm, ⟨95, _⟩ => ⟨S10x256, .f32⟩
  | .hbm, ⟨96, _⟩ => ⟨S10x256, .f32⟩
  | .hbm, ⟨97, _⟩ => ⟨S32768x10, .f32⟩
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  bcast_S256x98_S256x98x1_0_1 : S256x98.BroadcastsInDim S256x98x1 (![0, 1] : Fin 2 → Fin S256x98x1.rank)
  bcast_S_S8 : S_.BroadcastsInDim S8 (![] : Fin 0 → Fin S8.rank)
  bcast_S8_S1x1x8_2 : S8.BroadcastsInDim S1x1x8 (![2] : Fin 1 → Fin S1x1x8.rank)
  bcast_S256x98x1_S256x98x8_0_1_2 : S256x98x1.BroadcastsInDim S256x98x8 (![0, 1, 2] : Fin 3 → Fin S256x98x8.rank)
  bcast_S1x1x8_S256x98x8_0_1_2 : S1x1x8.BroadcastsInDim S256x98x8 (![0, 1, 2] : Fin 3 → Fin S256x98x8.rank)
  bcast_S_S256x98x8 : S_.BroadcastsInDim S256x98x8 (![] : Fin 0 → Fin S256x98x8.rank)
  shapeCasts_S256x98x8_S256x784 : S256x98x8.ShapeCasts S256x784
  bcast_S_S256x784 : S_.BroadcastsInDim S256x784 (![] : Fin 0 → Fin S256x784.rank)
  bcast_S_S32768x256 : S_.BroadcastsInDim S32768x256 (![] : Fin 0 → Fin S32768x256.rank)
  bcast_S10x32_S10x32x1_0_1 : S10x32.BroadcastsInDim S10x32x1 (![0, 1] : Fin 2 → Fin S10x32x1.rank)
  bcast_S10x32x1_S10x32x8_0_1_2 : S10x32x1.BroadcastsInDim S10x32x8 (![0, 1, 2] : Fin 3 → Fin S10x32x8.rank)
  bcast_S1x1x8_S10x32x8_0_1_2 : S1x1x8.BroadcastsInDim S10x32x8 (![0, 1, 2] : Fin 3 → Fin S10x32x8.rank)
  bcast_S_S10x32x8 : S_.BroadcastsInDim S10x32x8 (![] : Fin 0 → Fin S10x32x8.rank)
  shapeCasts_S10x32x8_S10x256 : S10x32x8.ShapeCasts S10x256
  bcast_S_S10x256 : S_.BroadcastsInDim S10x256 (![] : Fin 0 → Fin S10x256.rank)
  dot_S32768x784_S256x784_S32768x256_1_1_0_0_n_n_wf : DotDims.WF S32768x784 S256x784 S32768x256 [1] [1] [0] [0] [] []
  dot_S32768x256_S10x256_S32768x10_1_1_0_0_n_n_wf : DotDims.WF S32768x256 S10x256 S32768x10 [1] [1] [0] [0] [] []

variable [Facts₀]

def dot_S32768x784_S256x784_S32768x256_1_1_0_0_n_n : DotDims S32768x784 S256x784 S32768x256 where
  lhsContracting := [1]
  rhsContracting := [1]
  lhsNonContracting := [0]
  rhsNonContracting := [0]
  lhsBatch := []
  rhsBatch := []
  wf := dot_S32768x784_S256x784_S32768x256_1_1_0_0_n_n_wf
def dot_S32768x256_S10x256_S32768x10_1_1_0_0_n_n : DotDims S32768x256 S10x256 S32768x10 where
  lhsContracting := [1]
  rhsContracting := [1]
  lhsNonContracting := [0]
  rhsNonContracting := [0]
  lhsBatch := []
  rhsBatch := []
  wf := dot_S32768x256_S10x256_S32768x10_1_1_0_0_n_n_wf

class Facts : Prop extends Facts₀ where

variable [Facts]
-- ==== Proof.Body.lean ====
/-
  The kernel body at one grid point, read at an index, over the extended reals.

  The body loads a block `x` of 2048 rows of the input (2048 × 784), the first layer's weights `a` (784 × 256, already
  transposed) and the second layer's weights `b` (256 × 10, already transposed), and stores

      out[p, q] = Σ_h  max( Σ_k x[p, k] · a[k, h] , 0 ) · b[h, q].

  Both matrix products accumulate into a zero splat, so each is the plain finite sum of products; a change of float
  format is the identity on the extended reals; the rectifier is the maximum with the zero word.
-/
import proofs.«421897_j72980084293821_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The first product's operand indices: rows × contraction, contraction × columns -/

theorem lhs_first_0 (i : S2048x256.Idx) (q : dot_S2048x784_S784x256_S2048x256_1_0_0_1_n_n.contr.Idx) :
    (dot_S2048x784_S784x256_S2048x256_1_0_0_1_n_n.lhsIdx i q 0).val = (i 0).val := by
  unfold DotDims.lhsIdx
  rw [dif_neg (show ¬(0 : Fin S2048x784.rank) ∈ dot_S2048x784_S784x256_S2048x256_1_0_0_1_n_n.lhsBatch by decide), dif_pos (show (0 : Fin S2048x784.rank) ∈ dot_S2048x784_S784x256_S2048x256_1_0_0_1_n_n.lhsNonContracting by decide)]
  rfl
theorem lhs_first_1 (i : S2048x256.Idx) (q : dot_S2048x784_S784x256_S2048x256_1_0_0_1_n_n.contr.Idx) :
    (dot_S2048x784_S784x256_S2048x256_1_0_0_1_n_n.lhsIdx i q 1).val = (q ⟨0, by decide⟩).val :=
  dot_S2048x784_S784x256_S2048x256_1_0_0_1_n_n.lhsIdx_val_of_single rfl i q
theorem rhs_first_0 (i : S2048x256.Idx) (q : dot_S2048x784_S784x256_S2048x256_1_0_0_1_n_n.contr.Idx) :
    (dot_S2048x784_S784x256_S2048x256_1_0_0_1_n_n.rhsIdx i q 0).val = (q ⟨0, by decide⟩).val :=
  dot_S2048x784_S784x256_S2048x256_1_0_0_1_n_n.rhsIdx_val_of_single rfl i q
theorem rhs_first_1 (i : S2048x256.Idx) (q : dot_S2048x784_S784x256_S2048x256_1_0_0_1_n_n.contr.Idx) :
    (dot_S2048x784_S784x256_S2048x256_1_0_0_1_n_n.rhsIdx i q 1).val = (i 1).val := by
  unfold DotDims.rhsIdx
  rw [dif_neg (show ¬(1 : Fin S784x256.rank) ∈ dot_S2048x784_S784x256_S2048x256_1_0_0_1_n_n.rhsBatch by decide), dif_pos (show (1 : Fin S784x256.rank) ∈ dot_S2048x784_S784x256_S2048x256_1_0_0_1_n_n.rhsNonContracting by decide)]
  rfl

/-- The first product into the zero splat, at row `p` and hidden unit `h`: the sum over the 784 inputs. -/
theorem first_apply (x : FVec Ideal S2048x784 .bf16) (a : FVec Ideal S784x256 .bf16) (p : Fin 2048) (h : Fin 256) :
    matmul dot_S2048x784_S784x256_S2048x256_1_0_0_1_n_n none x a (constant S2048x256 .f32 0x00000000#32) (ix2 p h)
      = ∑ k : Fin 784, x (ix2 p k) * a (ix2 k h) := by
  simp only [matmul]
  rw [Ideal.matmul_constant_zero_apply, ← Equiv.sum_comp (contrEquiv1 dot_S2048x784_S784x256_S2048x256_1_0_0_1_n_n 784 rfl rfl).symm]
  refine Finset.sum_congr rfl fun k _ => ?_
  have hk := contrEquiv1_symm_val dot_S2048x784_S784x256_S2048x256_1_0_0_1_n_n 784 rfl rfl k
  have el : dot_S2048x784_S784x256_S2048x256_1_0_0_1_n_n.lhsIdx (ix2 p h) ((contrEquiv1 dot_S2048x784_S784x256_S2048x256_1_0_0_1_n_n 784 rfl rfl).symm k) = ix2 p k := funext fun c => Fin.ext (by
    match c with
    | ⟨0, _⟩ => exact lhs_first_0 _ _
    | ⟨1, _⟩ => exact (lhs_first_1 _ _).trans hk)
  have er : dot_S2048x784_S784x256_S2048x256_1_0_0_1_n_n.rhsIdx (ix2 p h) ((contrEquiv1 dot_S2048x784_S784x256_S2048x256_1_0_0_1_n_n 784 rfl rfl).symm k) = ix2 k h := funext fun c => Fin.ext (by
    match c with
    | ⟨0, _⟩ => exact (rhs_first_0 _ _).trans hk
    | ⟨1, _⟩ => exact rhs_first_1 _ _)
  rw [el, er]

/-! ## The second product's operand indices -/

theorem lhs_second_0 (i : S2048x10.Idx) (q : dot_S2048x256_S256x10_S2048x10_1_0_0_1_n_n.contr.Idx) :
    (dot_S2048x256_S256x10_S2048x10_1_0_0_1_n_n.lhsIdx i q 0).val = (i 0).val := by
  unfold DotDims.lhsIdx
  rw [dif_neg (show ¬(0 : Fin S2048x256.rank) ∈ dot_S2048x256_S256x10_S2048x10_1_0_0_1_n_n.lhsBatch by decide), dif_pos (show (0 : Fin S2048x256.rank) ∈ dot_S2048x256_S256x10_S2048x10_1_0_0_1_n_n.lhsNonContracting by decide)]
  rfl
theorem lhs_second_1 (i : S2048x10.Idx) (q : dot_S2048x256_S256x10_S2048x10_1_0_0_1_n_n.contr.Idx) :
    (dot_S2048x256_S256x10_S2048x10_1_0_0_1_n_n.lhsIdx i q 1).val = (q ⟨0, by decide⟩).val :=
  dot_S2048x256_S256x10_S2048x10_1_0_0_1_n_n.lhsIdx_val_of_single rfl i q
theorem rhs_second_0 (i : S2048x10.Idx) (q : dot_S2048x256_S256x10_S2048x10_1_0_0_1_n_n.contr.Idx) :
    (dot_S2048x256_S256x10_S2048x10_1_0_0_1_n_n.rhsIdx i q 0).val = (q ⟨0, by decide⟩).val :=
  dot_S2048x256_S256x10_S2048x10_1_0_0_1_n_n.rhsIdx_val_of_single rfl i q
theorem rhs_second_1 (i : S2048x10.Idx) (q : dot_S2048x256_S256x10_S2048x10_1_0_0_1_n_n.contr.Idx) :
    (dot_S2048x256_S256x10_S2048x10_1_0_0_1_n_n.rhsIdx i q 1).val = (i 1).val := by
  unfold DotDims.rhsIdx
  rw [dif_neg (show ¬(1 : Fin S256x10.rank) ∈ dot_S2048x256_S256x10_S2048x10_1_0_0_1_n_n.rhsBatch by decide), dif_pos (show (1 : Fin S256x10.rank) ∈ dot_S2048x256_S256x10_S2048x10_1_0_0_1_n_n.rhsNonContracting by decide)]
  rfl

/-- The second product into the zero splat, at row `p` and output `q`: the sum over the 256 hidden units. -/
theorem second_apply (y : FVec Ideal S2048x256 .bf16) (b : FVec Ideal S256x10 .bf16) (p : Fin 2048) (q : Fin 10) :
    matmul dot_S2048x256_S256x10_S2048x10_1_0_0_1_n_n none y b (constant S2048x10 .f32 0x00000000#32) (ix2 p q)
      = ∑ h : Fin 256, y (ix2 p h) * b (ix2 h q) := by
  simp only [matmul]
  rw [Ideal.matmul_constant_zero_apply, ← Equiv.sum_comp (contrEquiv1 dot_S2048x256_S256x10_S2048x10_1_0_0_1_n_n 256 rfl rfl).symm]
  refine Finset.sum_congr rfl fun k _ => ?_
  have hk := contrEquiv1_symm_val dot_S2048x256_S256x10_S2048x10_1_0_0_1_n_n 256 rfl rfl k
  have el : dot_S2048x256_S256x10_S2048x10_1_0_0_1_n_n.lhsIdx (ix2 p q) ((contrEquiv1 dot_S2048x256_S256x10_S2048x10_1_0_0_1_n_n 256 rfl rfl).symm k) = ix2 p k := funext fun c => Fin.ext (by
    match c with
    | ⟨0, _⟩ => exact lhs_second_0 _ _
    | ⟨1, _⟩ => exact (lhs_second_1 _ _).trans hk)
  have er : dot_S2048x256_S256x10_S2048x10_1_0_0_1_n_n.rhsIdx (ix2 p q) ((contrEquiv1 dot_S2048x256_S256x10_S2048x10_1_0_0_1_n_n 256 rfl rfl).symm k) = ix2 k q := funext fun c => Fin.ext (by
    match c with
    | ⟨0, _⟩ => exact (rhs_second_0 _ _).trans hk
    | ⟨1, _⟩ => exact rhs_second_1 _ _)
  rw [el, er]

/-! ## The payload -/

/-- What the body stores, at row `p` of the block and output `q`: the second layer's sum over the hidden units of the
    rectified first layer's sums. -/
theorem payload_apply (x : Vec Ideal S2048x784 .f32) (a : Vec Ideal S784x256 .bf16) (b : Vec Ideal S256x10 .bf16)
    (p : Fin 2048) (q : Fin 10) :
    k0_pay1 (F := Ideal) x a b (ix2 p q)
      = ∑ h : Fin 256, max (∑ k : Fin 784, x (ix2 p k) * a (ix2 k h)) (Ideal.ofBits .f32 0x00000000#32) * b (ix2 h q) := by
  unfold k0_pay1
  refine (second_apply _ _ p q).trans ?_
  refine Finset.sum_congr rfl fun h _ => ?_
  rw [shapeCast_self, shapeCast_self]
  refine congrArg (· * b (ix2 h q)) ?_
  show max (matmul (F := Ideal) dot_S2048x784_S784x256_S2048x256_1_0_0_1_n_n none _ _ (constant (F := Ideal) S2048x256 .f32 0x00000000#32) (ix2 p h)) _ = _
  rw [first_apply]
  rfl

end Cert.KernelIdeal.Body

end
-- ==== Proof.Weights.lean ====
/-
  The weights the kernel's region finds.

  Before the region the host unpacks the 1-bit-packed weights: a packed word `p[r, j]` holds eight bits, bit `7 - s` of
  it (arithmetic shift right by `7 - s`, then `and 1`) becomes entry `[r, 8·j + s]` of a 0/1 matrix. The first layer's
  weight matrix is

      W1[h, k] = float(2 · bit(w1_packed)[h, k] − 1) · float(bit(m1_packed)[h, k]) · alpha1,        256 × 784,

  and the second layer's `W2` (10 × 256) is the same expression of `w2_packed`, `m2_packed`, `alpha2`. The region's two
  weight windows hold the transposes of these, changed to the narrower float format.
-/
import proofs.«421897_j72980084293821_3_alg».proof.Proof.Gen.KernelIdeal.Frame
import Idealize.ShloMosaic.Lib.StableHlo.Run

noncomputable section

namespace Cert.KernelIdeal.Weights

open Cert.KernelIdeal Cert.KernelIdeal.Gen Idealize.ShloMosaic Idealize.ShloMosaic.TcCoe Idealize.SL.Sem Idealize.ShloMosaic.StableHlo

variable {F : FTy → Type} [FloatOps F]

/-- The shift amounts `7, 6, …, 0`: `7 + (−1) · s` for `s = 0 … 7`. -/
def shifts : (⟨S8, .i32⟩ : BufTy).Contents (Elt F) :=
  addi (broadcastInDim S8 ![] bcast_S_S8 (constantI S_ 32 7#32))
    (muli (broadcastInDim S8 ![] bcast_S_S8 (constantI S_ 32 4294967295#32)) (iotaInDim S8 32 0))

/-- The bits of a 256 × 98 array of packed words, most significant of the low eight first, as a 256 × 784 array of 0/1. -/
def bits784 (p : (⟨S256x98, .i32⟩ : BufTy).Contents (Elt F)) : (⟨S256x784, .i32⟩ : BufTy).Contents (Elt F) :=
  shapeCast _ (andi (Host.shrsi
      (broadcastInDim S256x98x8 ![0, 1, 2] bcast_S256x98x1_S256x98x8_0_1_2 (broadcastInDim S256x98x1 ![0, 1] bcast_S256x98_S256x98x1_0_1 p))
      (broadcastInDim S256x98x8 ![0, 1, 2] bcast_S1x1x8_S256x98x8_0_1_2 (broadcastInDim S1x1x8 ![2] bcast_S8_S1x1x8_2 (shifts (F := F)))))
    (broadcastInDim S256x98x8 ![] bcast_S_S256x98x8 (constantI S_ 32 1#32))) shapeCasts_S256x98x8_S256x784

/-- The same for a 10 × 32 array of packed words: a 10 × 256 array of 0/1. -/
def bits256 (p : (⟨S10x32, .i32⟩ : BufTy).Contents (Elt F)) : (⟨S10x256, .i32⟩ : BufTy).Contents (Elt F) :=
  shapeCast _ (andi (Host.shrsi
      (broadcastInDim S10x32x8 ![0, 1, 2] bcast_S10x32x1_S10x32x8_0_1_2 (broadcastInDim S10x32x1 ![0, 1] bcast_S10x32_S10x32x1_0_1 p))
      (broadcastInDim S10x32x8 ![0, 1, 2] bcast_S1x1x8_S10x32x8_0_1_2 (broadcastInDim S1x1x8 ![2] bcast_S8_S1x1x8_2 (shifts (F := F)))))
    (broadcastInDim S10x32x8 ![] bcast_S_S10x32x8 (constantI S_ 32 1#32))) shapeCasts_S10x32x8_S10x256

/-- The first layer's weights: `(2·bit − 1) · mask · alpha`, 256 × 784. -/
def W1 (w mk : (⟨S256x98, .i32⟩ : BufTy).Contents (Elt F)) (al : (⟨S_, .f32⟩ : BufTy).Contents (Elt F)) :
    (⟨S256x784, .f32⟩ : BufTy).Contents (Elt F) :=
  mulf (mulf
      (sitofp .f32 (subi (muli (broadcastInDim S256x784 ![] bcast_S_S256x784 (constantI S_ 32 2#32)) (bits784 (F := F) w))
        (broadcastInDim S256x784 ![] bcast_S_S256x784 (constantI S_ 32 1#32))))
      (sitofp .f32 (bits784 (F := F) mk)))
    (broadcastInDim S256x784 ![] bcast_S_S256x784 al)

/-- The second layer's weights: the same expression, 10 × 256. -/
def W2 (w mk : (⟨S10x32, .i32⟩ : BufTy).Contents (Elt F)) (al : (⟨S_, .f32⟩ : BufTy).Contents (Elt F)) :
    (⟨S10x256, .f32⟩ : BufTy).Contents (Elt F) :=
  mulf (mulf
      (sitofp .f32 (subi (muli (broadcastInDim S10x256 ![] bcast_S_S10x256 (constantI S_ 32 2#32)) (bits256 (F := F) w))
        (broadcastInDim S10x256 ![] bcast_S_S10x256 (constantI S_ 32 1#32))))
      (sitofp .f32 (bits256 (F := F) mk)))
    (broadcastInDim S10x256 ![] bcast_S_S10x256 al)

variable (m : (ℓ : Loc nD τ sig) → Buf (Elt F) ℓ)

set_option maxRecDepth 8192 in
set_option maxHeartbeats 4000000 in
/-- The first weight window's array when the region is entered: the transpose of `W1`, in the narrower format. -/
theorem first_window (c : Dev nD) :
    (V m c main_call0_v71 : S784x256.Idx → Elt F .bf16)
      = truncf .bf16 (transpose S784x256 [1, 0]
          (W1 (F := F) (m ((c.tc : Thread nD τ).loc main_arg1)) (m ((c.tc : Thread nD τ).loc main_arg2)) (m ((c.tc : Thread nD τ).loc main_arg3)))
          transposes_S256x784_S784x256_1_0) bitsLt_bf16_f32 := by
  dsimp only [V, hostOps0]
  after_results_simp
  rfl

set_option maxRecDepth 8192 in
set_option maxHeartbeats 4000000 in
/-- The second weight window's array when the region is entered: the transpose of `W2`, in the narrower format. -/
theorem second_window (c : Dev nD) :
    (V m c main_call0_v73 : S256x10.Idx → Elt F .bf16)
      = truncf .bf16 (transpose S256x10 [1, 0]
          (W2 (F := F) (m ((c.tc : Thread nD τ).loc main_arg4)) (m ((c.tc : Thread nD τ).loc main_arg5)) (m ((c.tc : Thread nD τ).loc main_arg6)))
          transposes_S10x256_S256x10_1_0) bitsLt_bf16_f32 := by
  dsimp only [V, hostOps0]
  after_results_simp
  rfl

end Cert.KernelIdeal.Weights

end
-- ==== Proof.Spec.lean ====
/-
  The function both programs compute, over the extended reals: a two-layer perceptron with a rectifier,

      mlp x W1 W2 [r, o] = Σ_h  max( Σ_k x[r, k] · W1[h, k] , 0 ) · W2[o, h]

  for a batch `x` of 32768 rows of 784 inputs, first-layer weights `W1` (256 hidden units × 784 inputs) and second-layer
  weights `W2` (10 outputs × 256 hidden units). The zero of the rectifier is kept as the float word `0x00000000` the two
  programs both spell; it is never evaluated.
-/
import Idealize.ShloMosaic.PureOps.Ideal
import Idealize.ShloMosaic.Lib.ValueIdx

noncomputable section

namespace Cert.Mlp

open Idealize.ShloMosaic Idealize.ShloMosaic.ValueIdx

/-- The perceptron's output at batch row `i 0` and output unit `i 1`. -/
def mlp (x : (⟨2, ![32768, 784]⟩ : Shape).Idx → EReal) (W1 : (⟨2, ![256, 784]⟩ : Shape).Idx → EReal)
    (W2 : (⟨2, ![10, 256]⟩ : Shape).Idx → EReal) : (⟨2, ![32768, 10]⟩ : Shape).Idx → EReal :=
  fun i => ∑ h : Fin 256, max (∑ k : Fin 784, x (ix2 (i 0) k) * W1 (ix2 h k)) (Ideal.ofBits .f32 0x00000000#32) * W2 (ix2 (i 1) h)

end Cert.Mlp

end
-- ==== Proof.KernelValue.lean ====
/-
  The kernel's result array, over the extended reals.

  The grid has 16 points; point `t` stages rows `2048·t … 2048·t + 2047` of the input and the two whole weight arrays,
  and writes back rows `2048·t … 2048·t + 2047` of the result. What it writes is the body's payload of those blocks
  (`Body.payload_apply`), so row `r = 2048·t + p` of the result is the perceptron's row `r`, with the weight windows read
  transposed: they hold the transposes of `W1` and `W2` (`Weights.first_window`, `Weights.second_window`). The 16 blocks
  tile the result array, so it ends holding `mlp x W1 W2`.
-/
import proofs.«421897_j72980084293821_3_alg».proof.Proof.Gen.KernelIdeal.Value
import proofs.«421897_j72980084293821_3_alg».proof.Proof.Body
import proofs.«421897_j72980084293821_3_alg».proof.Proof.Weights
import proofs.«421897_j72980084293821_3_alg».proof.Proof.Spec
import Idealize.ShloMosaic.Lib.Pipeline.Value
import Idealize.ShloMosaic.Lib.ValueIdx
import Idealize.ShloMosaic.Lib.ValueLayout

noncomputable section

namespace Cert.KernelIdeal.Result

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, at their literal types -/

/-- The input as the region finds it. -/
abbrev xarr (c : Dev nD) : Vec Ideal S32768x784 .f32 := V m c main_arg0
/-- The first weight window's array: `W1` transposed. -/
abbrev aarr (c : Dev nD) : Vec Ideal S784x256 .bf16 := V m c main_call0_v71
/-- The second weight window's array: `W2` transposed. -/
abbrev barr (c : Dev nD) : Vec Ideal S256x10 .bf16 := V m c main_call0_v73

/-- The two weight matrices, of the argument arrays as launched. -/
abbrev w1 (c : Dev nD) : Vec Ideal S256x784 .f32 :=
  Weights.W1 (F := Ideal) (m ((c.tc : Thread nD τ).loc main_arg1)) (m ((c.tc : Thread nD τ).loc main_arg2)) (m ((c.tc : Thread nD τ).loc main_arg3))
abbrev w2 (c : Dev nD) : Vec Ideal S10x256 .f32 :=
  Weights.W2 (F := Ideal) (m ((c.tc : Thread nD τ).loc main_arg4)) (m ((c.tc : Thread nD τ).loc main_arg5)) (m ((c.tc : Thread nD τ).loc main_arg6))

/-- The first weight window at `(k, h)` is `W1` at `(h, k)`. -/
theorem aarr_apply (c : Dev nD) (k : Fin 784) (h : Fin 256) : aarr m c (ix2 k h) = w1 m c (ix2 h k) := by
  show (V m c main_call0_v71 : S784x256.Idx → Elt Ideal .bf16) (ix2 k h) = _
  rw [Weights.first_window]
  rw [truncf_apply]
  exact transpose_ix2_apply _ _ k h

/-- The second weight window at `(h, q)` is `W2` at `(q, h)`. -/
theorem barr_apply (c : Dev nD) (h : Fin 256) (q : Fin 10) : barr m c (ix2 h q) = w2 m c (ix2 q h) := by
  show (V m c main_call0_v73 : S256x10.Idx → Elt Ideal .bf16) (ix2 h q) = _
  rw [Weights.second_window]
  rw [truncf_apply]
  exact transpose_ix2_apply _ _ h q

/-! ## The index maps, decided over the 16 points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks as rows of the arrays -/

/-- The input window's block at point `t`, at `(p, k)`, is the input at row `2048·t + p`. -/
theorem xblk_apply (c : Dev nD) (t : Fin cfg0.N) (p : Fin 2048) (k : Fin 784) (r : Fin 32768) (hr : r.val = 2048 * t.val + p.val) :
    (iblk m c 0 t : Vec Ideal S2048x784 .f32) (ix2 p k) = xarr m c (ix2 r k) := by
  obtain ⟨e0, e1, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 784 + 1 * k.val = k.val; omega

/-- The first weight window's block at any point is the whole array. -/
theorem ablk_apply (c : Dev nD) (t : Fin cfg0.N) (k : Fin 784) (h : Fin 256) :
    (iblk m c 1 t : Vec Ideal S784x256 .bf16) (ix2 k h) = aarr m c (ix2 k h) := by
  obtain ⟨-, -, e0, e1, -⟩ := idx_facts t
  show V m c main_call0_v71 (((cfg0.win 1).blk t).view.emb (ix2 k h)) = V m c main_call0_v71 (ix2 k h)
  refine congrArg (V m c main_call0_v71) (funext fun a => Fin.ext ?_)
  match a with
  | ⟨0, _⟩ => show win0_1.index t (0 : Fin 2) * 784 + 1 * k.val = k.val; omega
  | ⟨1, _⟩ => show win0_1.index t (1 : Fin 2) * 256 + 1 * h.val = h.val; omega

/-- The second weight window's block at any point is the whole array. -/
theorem bblk_apply (c : Dev nD) (t : Fin cfg0.N) (h : Fin 256) (q : Fin 10) :
    (iblk m c 2 t : Vec Ideal S256x10 .bf16) (ix2 h q) = barr m c (ix2 h q) := by
  obtain ⟨-, -, -, -, e0, e1, -⟩ := idx_facts t
  show V m c main_call0_v73 (((cfg0.win 2).blk t).view.emb (ix2 h q)) = V m c main_call0_v73 (ix2 h q)
  refine congrArg (V m c main_call0_v73) (funext fun a => Fin.ext ?_)
  match a with
  | ⟨0, _⟩ => show win0_2.index t (0 : Fin 2) * 256 + 1 * h.val = h.val; omega
  | ⟨1, _⟩ => show win0_2.index t (1 : Fin 2) * 10 + 1 * q.val = q.val; omega

/-! ## What the result array ends holding -/

/-- The perceptron of the input as the region finds it and the two weight matrices. -/
abbrev result (c : Dev nD) : Vec Ideal S32768x10 .f32 := Cert.Mlp.mlp (xarr m c) (w1 m c) (w2 m c)

/-- WHAT POINT `t` WRITES BACK is block `t` of the perceptron's output. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S2048x784) hz, View.ld_unit_zero (S := S784x256) hz, View.ld_unit_zero (S := S256x10) hz]
  obtain ⟨-, -, -, -, -, -, e0, e1⟩ := idx_facts t
  funext j
  obtain ⟨p, q, rfl⟩ : ∃ (p : Fin 2048) (q : Fin 10), j = ix2 p q := ⟨j 0, j 1, eq_ix2 j⟩
  have hlt : 2048 * t.val + p.val < 32768 := by
    have := t.isLt; have hN : cfg0.N = 16 := N_0; have := p.isLt; omega
  show k0_pay1 (F := Ideal) (iblk m c 0 t) (iblk m c 1 t) (iblk m c 2 t) (ix2 p q)
      = Cert.Mlp.mlp (xarr m c) (w1 m c) (w2 m c) (((cfg0.win 3).blk t).view.emb (ix2 p q))
  refine (Body.payload_apply (iblk m c 0 t) (iblk m c 1 t) (iblk m c 2 t) p q).trans ?_
  have hE : ((cfg0.win 3).blk t).view.emb (ix2 p q) = (ix2 (⟨2048 * t.val + p.val, hlt⟩ : Fin 32768) q : S32768x10.Idx) := by
    funext a; apply Fin.ext
    match a with
    | ⟨0, _⟩ => show win0_3.index t (0 : Fin 2) * 2048 + 1 * p.val = 2048 * t.val + p.val; omega
    | ⟨1, _⟩ => show win0_3.index t (1 : Fin 2) * 10 + 1 * q.val = q.val; omega
  rw [hE]
  unfold Cert.Mlp.mlp
  refine Finset.sum_congr rfl fun h _ => ?_
  rw [bblk_apply m c t h q, barr_apply m c h q]
  refine congrArg (fun s => max s (Ideal.ofBits .f32 0x00000000#32) * w2 m c (ix2 q h)) ?_
  refine Finset.sum_congr rfl fun k _ => ?_
  rw [xblk_apply m c t p k ⟨2048 * t.val + p.val, hlt⟩ rfl, ablk_apply m c t k h, aarr_apply m c k h]

/-- An index of the result array is in point `t`'s block iff its row is among the point's 2048 rows. -/
theorem mem_blk (t : Fin cfg0.N) (i : S32768x10.Idx) :
    i ∈ ((cfg0.win 3).blk t).view.set ↔ ∀ a : Fin 2, win0_3.index t a * S2048x10.size a ≤ (i a).val ∧ (i a).val < win0_3.index t a * S2048x10.size a + S2048x10.size a := by
  show i ∈ ((View.whole main_v0).slice (win0_3.rect t)).set ↔ _
  rw [View.set_slice_whole, Rect.mem_set_unit]
  exact Iff.rfl

/-- The 16 blocks tile the result array: row `r` is in the block of point `r / 2048`. -/
theorem cover (i : S32768x10.Idx) : ∃ t : Fin cfg0.N, (cfg0.win 3).flush t = true ∧ i ∈ ((cfg0.win 3).blk t).view.set := by
  have hi0 : (i 0).val < 32768 := (i 0).isLt
  have hi1 : (i 1).val < 10 := (i 1).isLt
  have hN : cfg0.N = 16 := N_0
  let t : Fin cfg0.N := ⟨(i 0).val / 2048, by rw [hN]; omega⟩
  obtain ⟨-, -, -, -, -, -, e0, e1⟩ := idx_facts t
  have ht : t.val = (i 0).val / 2048 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 10 ≤ (i 1).val ∧ (i 1).val < win0_3.index t (1 : Fin 2) * 10 + 10; omega

/-- THE RESULT ARRAY after the run is the perceptron's output. -/
theorem final (c : Dev nD) : (dats m 0 c).arrAt 3 cfg0.N = result m c :=
  (dats m 0 c).arrAt_eq_of_cover 3 (result m c) (fun t _ => flushed_eq m c t) cover

/-- The run, read: the result array at the perceptron of the arguments as launched, the arguments unchanged. -/
theorem run : θ_run defs (onTc (τ := τ) (main (F := Ideal))) ⟨m, fun _ => 0, ρ⟩ fun r => ∀ c : Dev nD,
      r.2.mem ((c : Thread nD τ).loc main_v0)
          = Cert.Mlp.mlp (m ((c : Thread nD τ).loc main_arg0)) (w1 m c) (w2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (by
      show Cert.Mlp.mlp (V m c main_arg0) (w1 m c) (w2 m c) = _
      rw [V_main_arg0])), (h c).2⟩)
    (Value.run_blocks m ρ)

end Cert.KernelIdeal.Result

end
-- ==== Proof.RefValue.lean ====
/-
  The reference's result, over the extended reals.

  The reference contracts the input's second axis with the second axis of `W1` (256 × 784), rectifies, and contracts
  the hidden axis with the second axis of `W2` (10 × 256): at output index `(r, o)` that is

      Σ_h  max( Σ_k x[r, k] · W1[h, k] , 0 ) · W2[o, h],

  the perceptron of the specification. Its weight stages are the host operations the kernel's program also runs
  before its region, so they are the kernel's `W1` and `W2` of the same packed words and scales.
-/
import proofs.«421897_j72980084293821_3_alg».proof.Proof.Gen.ReferenceIdeal.Read
import proofs.«421897_j72980084293821_3_alg».proof.Proof.Weights
import proofs.«421897_j72980084293821_3_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-! ## The composed operand indices of the two contractions -/

theorem lhs_hidden (i : S32768x10.Idx) (h : Fin 256) (k : Fin 784) :
    lidx_main_v35 (lidx_main_v72 i h) k = ix2 (i 0) k :=
  funext fun a => Fin.ext (by match a with | ⟨0, _⟩ => rfl | ⟨1, _⟩ => rfl)
theorem rhs_hidden (i : S32768x10.Idx) (h : Fin 256) (k : Fin 784) :
    ridx_main_v35 (lidx_main_v72 i h) k = ix2 h k :=
  funext fun a => Fin.ext (by match a with | ⟨0, _⟩ => rfl | ⟨1, _⟩ => rfl)
theorem rhs_out (i : S32768x10.Idx) (h : Fin 256) :
    ridx_main_v72 i h = ix2 (i 1) h :=
  funext fun a => Fin.ext (by match a with | ⟨0, _⟩ => rfl | ⟨1, _⟩ => rfl)

/-- The reference's result is the perceptron of the input and its two weight stages. -/
theorem result_eq (x0 : (⟨S32768x784, .f32⟩ : BufTy).Contents (Elt Ideal)) (x1 x2 : (⟨S256x98, .i32⟩ : BufTy).Contents (Elt Ideal))
    (x3 : (⟨S_, .f32⟩ : BufTy).Contents (Elt Ideal)) (x4 x5 : (⟨S10x32, .i32⟩ : BufTy).Contents (Elt Ideal))
    (x6 : (⟨S_, .f32⟩ : BufTy).Contents (Elt Ideal)) :
    val_main_v72 (F := Ideal) x0 x1 x2 x3 x4 x5 x6
      = Cert.Mlp.mlp x0 (val_main_v34 (F := Ideal) x1 x2 x3) (val_main_v71 (F := Ideal) x4 x5 x6) := by
  funext i
  rw [val_main_v72_apply]
  unfold Cert.Mlp.mlp
  refine Finset.sum_congr rfl fun h _ => ?_
  rw [val_main_v36_apply, val_main_v35_apply, val_main_call0_v0_apply, val_main_call0_cst_apply, rhs_out]
  simp only [lhs_hidden, rhs_hidden]
  rfl

/-- The reference's first-layer weight stage is the kernel's `W1`: the same host operations of the same arguments. -/
theorem w1_eq (x1 x2 : (⟨S256x98, .i32⟩ : BufTy).Contents (Elt Ideal)) (x3 : (⟨S_, .f32⟩ : BufTy).Contents (Elt Ideal)) :
    val_main_v34 (F := Ideal) x1 x2 x3 = Cert.KernelIdeal.Weights.W1 (F := Ideal) x1 x2 x3 := rfl

/-- The reference's second-layer weight stage is the kernel's `W2`. -/
theorem w2_eq (x4 x5 : (⟨S10x32, .i32⟩ : BufTy).Contents (Elt Ideal)) (x6 : (⟨S_, .f32⟩ : BufTy).Contents (Elt Ideal)) :
    val_main_v71 (F := Ideal) x4 x5 x6 = Cert.KernelIdeal.Weights.W2 (F := Ideal) x4 x5 x6 := rfl

end Cert.ReferenceIdeal.RefValue

end
-- ==== Proof.lean ====
/-
  The kernel is a two-layer perceptron with a rectifier on 1-bit-packed weights: it unpacks the two weight matrices on
  the host, transposes them, and computes `max(x · W1ᵀ, 0) · W2ᵀ` for 2048 batch rows per grid point. The reference
  unpacks the same matrices by the same host operations and contracts `x` with `W1`, rectifies, and contracts with `W2`.

  Over the extended reals a change of float format is the identity and each matrix product is a finite sum of products,
  so both programs end with

      out[r, o] = Σ_h  max( Σ_k x[r, k] · W1[h, k] , 0 ) · W2[o, h]        (Proof/Spec.lean),

  term for term — the same factors in the same order, so no law of the extended reals beyond the reading of a transpose
  at an index is used, and the precondition (finite inputs) is not opened.

  Proof/Body.lean      the kernel body's stored value at an index;
  Proof/Weights.lean   the weight matrices of the packed words, and what the region's two weight windows hold;
  Proof/KernelValue.lean   each grid point writes its 2048 rows of the perceptron's output; the 16 blocks tile the array;
  Proof/RefValue.lean  the reference's result is the perceptron of the same weight matrices.

  The three frames: the two kernel programs' are their generated frame certificates, the reference's its generated run
  with the result dropped. The idealization rewrote no operation, so `preserves` is `True`.
-/
import proofs.«421897_j72980084293821_3_alg».proof.Defs
import proofs.«421897_j72980084293821_3_alg».proof.Proof.Gen.Kernel
import proofs.«421897_j72980084293821_3_alg».proof.Proof.Gen.Kernel.Skeleton
import proofs.«421897_j72980084293821_3_alg».proof.Proof.Gen.Kernel.Launch
import proofs.«421897_j72980084293821_3_alg».proof.Proof.Gen.Kernel.Points
import proofs.«421897_j72980084293821_3_alg».proof.Proof.Gen.Kernel.Frame
import proofs.«421897_j72980084293821_3_alg».proof.Proof.Gen.KernelIdeal
import proofs.«421897_j72980084293821_3_alg».proof.Proof.Gen.KernelIdeal.Skeleton
import proofs.«421897_j72980084293821_3_alg».proof.Proof.Gen.KernelIdeal.Launch
import proofs.«421897_j72980084293821_3_alg».proof.Proof.Gen.KernelIdeal.Points
import proofs.«421897_j72980084293821_3_alg».proof.Proof.Gen.KernelIdeal.Frame
import proofs.«421897_j72980084293821_3_alg».proof.Proof.Gen.ReferenceIdeal
import proofs.«421897_j72980084293821_3_alg».proof.Proof.Gen.Pre_finite_inputs
import proofs.«421897_j72980084293821_3_alg».proof.Proof.Gen.KernelIdeal.Value
import proofs.«421897_j72980084293821_3_alg».proof.Proof.Gen.ReferenceIdeal.Run
import proofs.«421897_j72980084293821_3_alg».proof.Proof.Gen.ReferenceIdeal.Read
import proofs.«421897_j72980084293821_3_alg».proof.Proof.KernelValue
import proofs.«421897_j72980084293821_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the perceptron's output of the input and the two
    weight matrices: the kernel's result array block by block, the reference's by its two contractions read at an
    index, the weight matrices one term of the packed words on both sides. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v72_eq, Cert.ReferenceIdeal.RefValue.result_eq,
    Cert.ReferenceIdeal.RefValue.w1_eq, Cert.ReferenceIdeal.RefValue.w2_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
